-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S4096x2048 : Shape := ⟨2, ![4096, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S16384x2048 .f32) (main_arg1 : FVec F S4096x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S16384x2048 : Shape := ⟨2, ![16384, 2048]⟩
abbrev S4096x2048 : Shape := ⟨2, ![4096, 2048]⟩
abbrev S16384x4096 : Shape := ⟨2, ![16384, 4096]⟩
abbrev S1024x2048 : Shape := ⟨2, ![1024, 2048]⟩
abbrev S256x2048 : Shape := ⟨2, ![256, 2048]⟩
abbrev S1024x256 : Shape := ⟨2, ![1024, 256]⟩
abbrev S1024 : Shape := ⟨1, ![1024]⟩
abbrev S1024x1 : Shape := ⟨2, ![1024, 1]⟩
abbrev S256 : Shape := ⟨1, ![256]⟩
abbrev S256x1 : Shape := ⟨2, ![256, 1]⟩
abbrev S1x256 : Shape := ⟨2, ![1, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S4096x2048, .f32⟩
  | .hbm, ⟨2, _⟩ => ⟨S16384x4096, .f32⟩
  | .local _ .vmem, ⟨0, _⟩ => ⟨S1024x2048, .f32⟩
  | .local _ .vmem, ⟨1, _⟩ => ⟨S1024x2048, .f32⟩
  | .local _ .vmem, ⟨2, _⟩ => ⟨S256x2048, .f32⟩
  | .local _ .vmem, ⟨3, _⟩ => ⟨S256x2048, .f32⟩
  | .local _ .vmem, ⟨4, _⟩ => ⟨S1024x256, .f32⟩
  | .local _ .vmem, ⟨5, _⟩ => ⟨S1024x256, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x2048_S1024x2048_0_0 : ∀ a, (![0, 0] : Fin 2 → Nat) a + S1024x2048.size a ≤ S1024x2048.size a
  h_S1024x2048 : 0 < S1024x2048.numel
  inb_S256x2048_S256x2048_0_0 : ∀ a, (![0, 0] : Fin 2 → Nat) a + S256x2048.size a ≤ S256x2048.size a
  h_S256x2048 : 0 < S256x2048.numel
  reduces_S1024x2048_S1024 : S1024x2048.Reduces [1] S1024
  shapeCasts_S1024_S1024x1 : S1024.ShapeCasts S1024x1
  reduces_S256x2048_S256 : S256x2048.Reduces [1] S256
  shapeCasts_S256_S256x1 : S256.ShapeCasts S256x1
  transposes_S256x1_p1_0_S1x256 : S256x1.Transposes [1, 0] S1x256
  bitsLt_bf16_f32 : FTy.bits .bf16 < FTy.bits .f32
  transposes_S256x2048_p1_0_S2048x256 : S256x2048.Transposes [1, 0] S2048x256
  broadcasts_S1024x1_S1024x256 : S1024x1.Broadcasts S1024x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x4096.size a
  hwx0_2 : ∀ i : grid0.Coords, EltTy.bits .f32 = 32 ∨ (Rect.block (s := S16384x4096) S1024x256.size (cc0_transform_2 i) (hinb0_2 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S4096x2048 : Shape := ⟨2, ![4096, 2048]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S2048x4096 : Shape := ⟨2, ![2048, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4096x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S2048x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  reducesTo_S4096x2048_S4096_d1 : S4096x2048.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  transposes_S4096x2048_S2048x4096_1_0 : S4096x2048.Transposes [1, 0] S2048x4096
  bcast_S_S16384x4096 : S_.BroadcastsInDim S16384x4096 (![] : Fin 0 → Fin S16384x4096.rank)
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.Distance.lean ====
/-
  The negated Euclidean distance between the rows of two matrices, as ONE function of the two arrays, index by
  index, on the extended reals:

      negDist x e (p, q) = -√( max( (Σₖ x[p,k]² + Σₖ e[q,k]²) − 2 · Σₖ x[p,k]·e[q,k] , 0 ) )

  over rows of 2048 entries. Entry (p, q) depends on row p of x and row q of e only, so the same definition, at any
  numbers of rows, names both the whole result and every tile of it: a tile of negDist of two arrays is negDist of the two
  bands of rows the tile lies in (negDist_congr). The factor 2 is kept as the f32 word of 2.0, which both programs
  write; nothing here needs its value.

  Below the definition: the layout operations a row sum with a kept unit axis goes through, read at an index — a vector
  [a] recast to a column [a,1], a column [a,1] turned into a row [1,a], and a column [a,1] repeated along [a,b].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Distance

open Idealize.ShloMosaic Idealize.ShloMosaic.ValueIdx

/-- The negated distance of two rows `a`, `b` of 2048 extended reals, by the expansion ‖a‖² + ‖b‖² − 2⟨a,b⟩ clamped at
    zero before the root. -/
def negDistRows (a b : Fin 2048 → EReal) : EReal :=
  -(Ideal.sqrt (max (((∑ k, a k * a k) + (∑ k, b k * b k)) - Ideal.ofBits .f32 0x40000000#32 * ∑ k, a k * b k) 0))

/-- Entry (p, q): the negated distance of row p of `x` and row q of `e`. -/
def negDist {n g : ℕ} (x : (⟨2, ![n, 2048]⟩ : Shape).Idx → EReal) (e : (⟨2, ![g, 2048]⟩ : Shape).Idx → EReal) :
    (⟨2, ![n, g]⟩ : Shape).Idx → EReal :=
  fun i => negDistRows (fun k => x (ix2 (i 0) k)) (fun k => e (ix2 (i 1) k))

theorem negDist_ix2 {n g : ℕ} (x : (⟨2, ![n, 2048]⟩ : Shape).Idx → EReal) (e : (⟨2, ![g, 2048]⟩ : Shape).Idx → EReal)
    (p : Fin n) (q : Fin g) :
    negDist x e (ix2 p q) = negDistRows (fun k => x (ix2 p k)) (fun k => e (ix2 q k)) := rfl

/-- An entry of negDist depends only on the two rows it names: arrays of any heights whose rows p, p' and q, q' agree
    give the same entry. -/
theorem negDist_congr {n g n' g' : ℕ}
    (x : (⟨2, ![n, 2048]⟩ : Shape).Idx → EReal) (e : (⟨2, ![g, 2048]⟩ : Shape).Idx → EReal)
    (x' : (⟨2, ![n', 2048]⟩ : Shape).Idx → EReal) (e' : (⟨2, ![g', 2048]⟩ : Shape).Idx → EReal)
    (p : Fin n) (q : Fin g) (p' : Fin n') (q' : Fin g')
    (hx : ∀ k : Fin 2048, x (ix2 p k) = x' (ix2 p' k)) (he : ∀ k : Fin 2048, e (ix2 q k) = e' (ix2 q' k)) :
    negDist x e (ix2 p q) = negDist x' e' (ix2 p' q') := by
  rw [negDist_ix2, negDist_ix2]
  exact congrArg₂ negDistRows (funext hx) (funext he)

/-! ## A kept unit axis, read at an index -/

variable {α : Type}

/-- A vector [a] recast to a column [a,1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a,1] repeated along a second axis of extent b > 1 reads, at (i, j), the column at (i, 0). -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    rw [if_neg ha]
  | ⟨1, _⟩ =>
    show 0 = if (1 : ℕ) = 1 then 0 else j.val
    rw [if_pos rfl]

end Cert.Distance

end
-- ==== Proof.TileValue.lean ====
/-
  One tile of the kernel. The body loads a band of 1024 rows of x and a band of 256 rows of e, whole, and stores one
  value: with x2[p] the sum of squares of row p of the x band, e2[q] that of row q of the e band (summed as a column,
  then turned into a row), and cross = (x band) · (e band)ᵀ accumulated from zero,

      0 − √( max( (x2[p] + e2[q]) − 2 · cross[p,q] , 0 ) ).

  On the extended reals the narrowing of both bands to bf16 before the product is the identity, the product into a zero
  accumulator is the plain sum over the shared axis of 2048, and 0 − y is −y: the stored tile is negDist of the two bands.
-/
import proofs.«150804_j47966194762112_1_alg».proof.Proof.Gen.KernelIdeal.Skeleton
import proofs.«150804_j47966194762112_1_alg».proof.Proof.Distance

noncomputable section

open scoped BigOperators

namespace Cert.KernelIdeal.TileValue

open Cert.KernelIdeal Cert.KernelIdeal.Gen Cert.Distance
open Idealize.ShloMosaic Idealize.ShloMosaic.ValueIdx

/-- A lane sum along the rows of an [n, 2048] tile, at row p, is the sum of that row. -/
theorem rowSum_apply {n : ℕ} (v : FVec Ideal ⟨2, ![n, 2048]⟩ .f32) (h : (⟨2, ![n, 2048]⟩ : Shape).Reduces [1] ⟨1, ![n]⟩)
    (hφ : FKind.Formats .f32) (hacc : (0x00000000#32 : BitVec 32) = 0x00000000#32) (p : Fin n) :
    multiReduction .add [1] ⟨1, ![n]⟩ v 0x00000000#32 h hφ hacc (ix1 p) = ∑ k : Fin 2048, v (ix2 p k) := by
  refine (Ideal.multiReduction_add_single v 0x00000000#32 h hφ hacc (ix1 p)).trans ?_
  exact Finset.sum_congr rfl fun k _ => congrArg v (funext fun a => Fin.ext (by match a with | ⟨0, _⟩ => rfl | ⟨1, _⟩ => rfl))

/-- The root of a vector, at an index. -/
theorem sqrt_apply {s : Shape} {φ : FTy} (a : FVec Ideal s φ) (i : s.Idx) : sqrt a i = Ideal.sqrt (a i) := rfl

/-! ## The product of the x band with the transposed e band, at an index -/

theorem lhs_cross_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_cross_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_cross_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_cross_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The transposed e band at (k, q) is the e band at (q, k). -/
theorem eT_apply {φ : FTy} (r : FVec Ideal S256x2048 φ) (h : S256x2048.Transposes [1, 0] S2048x256) (k : Fin 2048) (q : Fin 256) :
    transpose S2048x256 [1, 0] r h (ix2 k q) = r (ix2 q k) :=
  transpose_ix2_apply r h k q

/-- Accumulated from zero, the product of a band `l` with the transpose of a band `r`, at (p, q), is the sum over the
    shared axis of row p of `l` times row q of `r`. -/
theorem cross_apply {φ₁ φ₂ : FTy} (l : FVec Ideal S1024x2048 φ₁) (r : FVec Ideal S256x2048 φ₂)
    (h : S256x2048.Transposes [1, 0] S2048x256) (p : Fin 1024) (q : Fin 256) :
    matmul dot_S1024x2048_S2048x256_S1024x256_1_0_0_1_n_n none l (transpose S2048x256 [1, 0] r h) (constant S1024x256 .f32 0x00000000#32) (ix2 p q)
      = ∑ k : Fin 2048, l (ix2 p k) * r (ix2 q k) := by
  show FloatOps.matmul dot_S1024x2048_S2048x256_S1024x256_1_0_0_1_n_n none l (transpose S2048x256 [1, 0] r h) (constant S1024x256 .f32 0x00000000#32) (ix2 p q) = _
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p q) ((contrEquiv1 dot_S1024x2048_S2048x256_S1024x256_1_0_0_1_n_n 2048 rfl rfl).symm k) = ix2 p k := funext fun a => Fin.ext (by
    match a with
    | ⟨0, _⟩ => exact lhs_cross_0 _ _
    | ⟨1, _⟩ => exact (lhs_cross_1 _ _).trans hk)
  have er : dot_S1024x2048_S2048x256_S1024x256_1_0_0_1_n_n.rhsIdx (ix2 p q) ((contrEquiv1 dot_S1024x2048_S2048x256_S1024x256_1_0_0_1_n_n 2048 rfl rfl).symm k) = ix2 k q := funext fun a => Fin.ext (by
    match a with
    | ⟨0, _⟩ => exact (rhs_cross_0 _ _).trans hk
    | ⟨1, _⟩ => exact rhs_cross_1 _ _)
  rw [el, er, eT_apply]

/-! ## The stored tile -/

/-- What the body stores is the negated distance of the rows of the two bands it loaded. -/
theorem tile_eq (x0 : FVec Ideal S1024x2048 .f32) (x1 : FVec Ideal S256x2048 .f32) :
    k0_pay1 (F := Ideal) x0 x1 = negDist x0 x1 := by
  funext j
  obtain ⟨p, q, rfl⟩ : ∃ (p : Fin 1024) (q : Fin 256), j = ix2 p q := ⟨j 0, j 1, eq_ix2 j⟩
  rw [negDist_ix2]
  unfold k0_pay1
  simp only [subf_apply, sqrt_apply, maximumf_apply, addf_apply, mulf_apply, broadcast_apply]
  rw [broadcastTo_a1_ab_apply (by decide) _ _ p q, shapeCast_a_a1_apply _ _ p 0, rowSum_apply,
    broadcastTo_1b_ab_apply _ _ p q, transpose_ix2_apply _ _ (0 : Fin 1) q, shapeCast_a_a1_apply _ _ q 0, rowSum_apply,
    cross_apply]
  simp only [mulf_apply, truncf_apply, Ideal.ofBits_def, Ideal.ofBits_zero_f32, zero_sub]
  rfl

end Cert.KernelIdeal.TileValue

end
-- ==== Proof.ArrayValue.lean ====
/-
  From tiles to the whole array. The grid is 16 × 16; at point t = (bi, bj) the kernel reads the band of rows
  1024·bi … 1024·bi + 1023 of x (all 2048 columns), the band of rows 256·bj … 256·bj + 255 of e, and writes back the
  1024 × 256 tile of the result whose corner is (1024·bi, 256·bj). Entry (p, q) of what it writes is the negated
  distance of row p of the x band and row q of the e band (TileValue.tile_eq), that is of row 1024·bi + p of x and row
  256·bj + q of e: the tile of negDist x e at that corner. Every entry of the 16384 × 4096 result lies in exactly the
  tile of point (⌊row / 1024⌋, ⌊column / 256⌋), every point writes back, so after the run the array is negDist x e.
-/
import proofs.«150804_j47966194762112_1_alg».proof.Proof.Gen.KernelIdeal.Value
import proofs.«150804_j47966194762112_1_alg».proof.Proof.TileValue

noncomputable section

namespace Cert.KernelIdeal.ArrayValue

open Cert.KernelIdeal Cert.KernelIdeal.Gen Cert.KernelIdeal.Value Cert.Distance
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The two arguments as the region finds them, at their literal shapes. -/
abbrev xArr (c : Dev nD) : FVec Ideal S16384x2048 .f32 := V m c main_arg0
abbrev eArr (c : Dev nD) : FVec Ideal S4096x2048 .f32 := V m c main_arg1

/-- The band of x and the band of e the body finds in its staging buffers at point t. -/
abbrev xBand (c : Dev nD) (t : Fin cfg0.N) : FVec Ideal S1024x2048 .f32 := iblk m c 0 t
abbrev eBand (c : Dev nD) (t : Fin cfg0.N) : FVec Ideal S256x2048 .f32 := iblk m c 1 t

/-- How the windows move: the x band follows the output tile's row block and the e band its column block, both at
    column block 0; the output's block indices stay below 16. Decided over the 256 points. -/
theorem tile_origin : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 15 :=
  (by decide +kernel : ∀ t : Fin grid0.N, _)

/-- Every one of the 16 × 16 tiles is some point's. -/
theorem tile_onto : ∀ (b0 : Fin 16) (b1 : Fin 16), ∃ t : Fin cfg0.N, win0_2.index t = ![b0.val, b1.val] :=
  (by decide +kernel : ∀ (b0 : Fin 16) (b1 : Fin 16), ∃ t : Fin grid0.N, win0_2.index t = ![b0.val, b1.val])

/-- Row p of the x band at point t is row (1024 · row block + p) of x. -/
theorem xBand_apply (c : Dev nD) (t : Fin cfg0.N) (p : Fin 1024) (k : Fin 2048) (P : Fin 16384)
    (hP : P.val = win0_2.index t (0 : Fin 2) * 1024 + p.val) :
    xBand m c t (ix2 p k) = xArr m c (ix2 P k) := by
  obtain ⟨e0, e1, -, -, -, -⟩ := tile_origin t
  show V m c main_arg0 (((cfg0.win 0).blk t).view.emb (ix2 p k)) = V m c main_arg0 (ix2 P k)
  refine congrArg (V m c main_arg0) (funext fun a => Fin.ext ?_)
  match a with
  | ⟨0, _⟩ => show win0_0.index t (0 : Fin 2) * 1024 + 1 * p.val = P.val; omega
  | ⟨1, _⟩ => show win0_0.index t (1 : Fin 2) * 2048 + 1 * k.val = k.val; omega

/-- Row q of the e band at point t is row (256 · column block + q) of e. -/
theorem eBand_apply (c : Dev nD) (t : Fin cfg0.N) (q : Fin 256) (k : Fin 2048) (Q : Fin 4096)
    (hQ : Q.val = win0_2.index t (1 : Fin 2) * 256 + q.val) :
    eBand m c t (ix2 q k) = eArr m c (ix2 Q k) := by
  obtain ⟨-, -, e2, e3, -, -⟩ := tile_origin t
  show V m c main_arg1 (((cfg0.win 1).blk t).view.emb (ix2 q k)) = V m c main_arg1 (ix2 Q k)
  refine congrArg (V m c main_arg1) (funext fun a => Fin.ext ?_)
  match a with
  | ⟨0, _⟩ => show win0_1.index t (0 : Fin 2) * 256 + 1 * q.val = Q.val; omega
  | ⟨1, _⟩ => show win0_1.index t (1 : Fin 2) * 2048 + 1 * k.val = k.val; omega

/-- WHAT POINT t WRITES BACK is its tile of negDist of the two arguments. -/
theorem flushed_eq (c : Dev nD) (t : Fin cfg0.N) :
    (dats m 0 c).flushed 2 t = ((cfg0.win 2).blk t).view.read (Elt Ideal) (negDist (xArr m c) (eArr m c)) := by
  rw [Value.flushed2]
  unfold out0_2
  rw [View.canon_unit_zero zero_offsets]
  simp only [View.ld_unit_zero (S := S1024x2048) zero_offsets, View.ld_unit_zero (S := S256x2048) zero_offsets]
  show (k0_pay1 (F := Ideal) (xBand m c t) (eBand m c t) : S1024x256.Idx → EReal)
    = fun y => negDist (xArr m c) (eArr m c) (((cfg0.win 2).blk t).view.emb y)
  rw [TileValue.tile_eq]
  funext j
  obtain ⟨p, q, rfl⟩ : ∃ (p : Fin 1024) (q : Fin 256), j = ix2 p q := ⟨j 0, j 1, eq_ix2 j⟩
  obtain ⟨-, -, -, -, b0, b1⟩ := tile_origin t
  have hemb : ((cfg0.win 2).blk t).view.emb (ix2 p q)
      = ix2 (⟨win0_2.index t (0 : Fin 2) * 1024 + p.val, by have := p.isLt; omega⟩ : Fin 16384)
          (⟨win0_2.index t (1 : Fin 2) * 256 + q.val, by have := q.isLt; omega⟩ : Fin 4096) := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 256 + 1 * q.val = win0_2.index t (1 : Fin 2) * 256 + q.val; omega
  show negDist (xBand m c t) (eBand m c t) (ix2 p q) = negDist (xArr m c) (eArr m c) (((cfg0.win 2).blk t).view.emb (ix2 p q))
  rw [hemb]
  exact negDist_congr _ _ _ _ p q _ _ (fun k => xBand_apply m c t p k _ rfl) (fun k => eBand_apply m c t q k _ rfl)

/-- An index of the result is in point t's tile iff each coordinate is in the tile's range on its axis. -/
theorem mem_tile (t : Fin cfg0.N) (i : S16384x4096.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0).slice (win0_2.rect t)).set ↔ _
  rw [View.set_slice_whole, Rect.mem_set_unit]
  exact Iff.rfl

/-- Every index of the result is in the tile of the point (⌊row / 1024⌋, ⌊column / 256⌋), which writes back. -/
theorem tiles_cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := tile_onto ⟨(i 0).val / 1024, by omega⟩ ⟨(i 1).val / 256, by omega⟩
  have q0 : win0_2.index t (0 : Fin 2) = (i 0).val / 1024 := congrFun ht 0
  have q1 : win0_2.index t (1 : Fin 2) = (i 1).val / 256 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- THE RESULT ARRAY after the run is negDist of the two arguments as launched. -/
theorem final (c : Dev nD) :
    (dats m 0 c).arrAt 2 cfg0.N = negDist (n := 16384) (g := 4096) (m ((c : Thread nD τ).loc main_arg0)) (m ((c : Thread nD τ).loc main_arg1)) :=
  (dats m 0 c).arrAt_eq_of_cover 2 (negDist (xArr m c) (eArr m c)) (fun t _ => flushed_eq m c t) tiles_cover

/-- The kernel's run with its result named: every weakly fair execution ends with the result array at negDist of the
    arguments and the arguments unchanged. -/
theorem run : θ_run defs (onTc (τ := τ) (main (F := Ideal))) ⟨m, fun _ => 0, ρ⟩ fun r => ∀ c : Dev nD,
      r.2.mem ((c : Thread nD τ).loc main_v0) = negDist (n := 16384) (g := 4096) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefDistance.lean ====
/-
  The reference, read at an index. Its last stage — the negation of the root of the clamped
  (Σₖ x[p,k]² + Σₖ e[q,k]²) − 2 · (x · eᵀ)[p,q] — is, entry by entry, the negated distance of row p of x and row q of e:
  the two row sums start from the zero word, which is the real 0, the product with the transposed e contracts the shared
  axis of 2048, and every broadcast only repeats a row's or a column's value.
-/
import proofs.«150804_j47966194762112_1_alg».proof.Proof.Gen.ReferenceIdeal.Read
import proofs.«150804_j47966194762112_1_alg».proof.Proof.Distance

noncomputable section

open scoped BigOperators

namespace Cert.ReferenceIdeal.RefValue

open Cert.ReferenceIdeal Cert.ReferenceIdeal.Gen Cert.ReferenceIdeal.Read Cert.Distance
open Idealize.ShloMosaic Idealize.ShloMosaic.ValueIdx

/-- Row p of x, met through the column of row sums and its two broadcasts. -/
theorem row_of_x2 (p : Fin 16384) (q : Fin 4096) (k : Fin 2048) :
    idx_main_v1 (idx_main_v2 (idx_main_v6 (ix2 p q))) k = ix2 p k :=
  funext fun a => Fin.ext (by match a with | ⟨0, _⟩ => rfl | ⟨1, _⟩ => rfl)

/-- Row q of e, met through the row of row sums and its two broadcasts. -/
theorem row_of_e2 (p : Fin 16384) (q : Fin 4096) (k : Fin 2048) :
    idx_main_v4 (idx_main_v5 (idx_main_v7 (ix2 p q))) k = ix2 q k :=
  funext fun a => Fin.ext (by match a with | ⟨0, _⟩ => rfl | ⟨1, _⟩ => rfl)

/-- The product's left factor at contraction index k is x[p,k]. -/
theorem cross_lhs (p : Fin 16384) (q : Fin 4096) (k : Fin 2048) : lidx_main_v10 (ix2 p q) k = ix2 p k :=
  funext fun a => Fin.ext (by match a with | ⟨0, _⟩ => rfl | ⟨1, _⟩ => rfl)

/-- Its right factor, through the transpose, is e[q,k]. -/
theorem cross_rhs (p : Fin 16384) (q : Fin 4096) (k : Fin 2048) : idx_main_v9 (ridx_main_v10 (ix2 p q) k) = ix2 q k :=
  funext fun a => Fin.ext (by match a with | ⟨0, _⟩ => rfl | ⟨1, _⟩ => rfl)

/-- The reference's result is the negated distance of the rows of its two arguments. -/
theorem result_eq (x : (⟨S16384x2048, .f32⟩ : BufTy).Contents (Elt Ideal)) (e : (⟨S4096x2048, .f32⟩ : BufTy).Contents (Elt Ideal)) :
    val_main_v17 (F := Ideal) x e = negDist x e := by
  funext i
  obtain ⟨p, q, rfl⟩ : ∃ (p : Fin 16384) (q : Fin 4096), i = ix2 p q := ⟨i 0, i 1, eq_ix2 i⟩
  rw [negDist_ix2, val_main_v17_apply, val_main_v16_apply, val_main_v15_apply, val_main_v13_apply, val_main_v14_apply,
    val_main_cst_2_apply, val_main_v8_apply, val_main_v12_apply, val_main_v11_apply, val_main_cst_1_apply,
    val_main_v10_apply, val_main_v6_apply, val_main_v2_apply, val_main_v1_apply, val_main_v7_apply, val_main_v5_apply,
    val_main_v4_apply, val_main_cst_apply, val_main_cst_0_apply]
  simp only [val_main_v9_apply, val_main_v0_apply, val_main_v3_apply, row_of_x2, row_of_e2, cross_lhs, cross_rhs,
    Ideal.hostNegf_def, Ideal.negf_def, Ideal.hostUnary_sqrt_def, Ideal.maximumf_def, Ideal.subf_def, Ideal.addf_def,
    Ideal.mulf_def, Ideal.ofBits_def, Ideal.ofBits_zero_f32, zero_add]
  rfl

end Cert.ReferenceIdeal.RefValue

end
-- ==== Proof.lean ====
/-
  Pairwise negated Euclidean distances between the 16384 rows of x and the 4096 rows of e, each of 2048 entries:

      out[p, q] = −√( max( (Σₖ x[p,k]² + Σₖ e[q,k]²) − 2 · Σₖ x[p,k]·e[q,k] , 0 ) ).

  The kernel computes it tile by tile over a 16 × 16 grid — a band of 1024 rows of x against a band of 256 rows of e per
  point, the row sums of squares taken from the loaded bands, the cross term as a matrix product of the two bands narrowed
  to bf16 and accumulated in f32 from zero, the sign by subtracting from zero. The reference computes it on whole arrays:
  two row sums started from zero, one product of x with the transposed e, a negation.

  On the extended reals the two are the same function of (x, e), entry by entry, with no algebra beyond 0 + s = s and
  0 − y = −y: a change of float format is the identity, a product accumulated from zero and a lane sum are plain sums over
  the 2048 shared positions, taken in the same order on both sides, and both programs clamp, take the root and multiply
  by the same f32 word of 2.0. No law used needs the entries finite, so the precondition is never opened.

    Distance.lean     the function negDist, at any numbers of rows, and that an entry depends only on its two rows
    RefDistance.lean  the reference's result is negDist x e
    TileValue.lean    what the kernel's body stores is negDist of the two bands it loaded
    ArrayValue.lean   the tiles are the tiles of negDist x e and cover the result: the kernel's run ends at negDist x e

  The three frames are the generated ones (the reference's is its run with the result dropped); the idealization rewrote
  nothing, so preserves is trivial.
-/
import proofs.«150804_j47966194762112_1_alg».proof.Defs
import proofs.«150804_j47966194762112_1_alg».proof.Proof.Gen.Kernel
import proofs.«150804_j47966194762112_1_alg».proof.Proof.Gen.Kernel.Skeleton
import proofs.«150804_j47966194762112_1_alg».proof.Proof.Gen.Kernel.Launch
import proofs.«150804_j47966194762112_1_alg».proof.Proof.Gen.Kernel.Points
import proofs.«150804_j47966194762112_1_alg».proof.Proof.Gen.Kernel.Frame
import proofs.«150804_j47966194762112_1_alg».proof.Proof.Gen.KernelIdeal
import proofs.«150804_j47966194762112_1_alg».proof.Proof.Gen.KernelIdeal.Skeleton
import proofs.«150804_j47966194762112_1_alg».proof.Proof.Gen.KernelIdeal.Launch
import proofs.«150804_j47966194762112_1_alg».proof.Proof.Gen.KernelIdeal.Points
import proofs.«150804_j47966194762112_1_alg».proof.Proof.Gen.KernelIdeal.Frame
import proofs.«150804_j47966194762112_1_alg».proof.Proof.Gen.ReferenceIdeal
import proofs.«150804_j47966194762112_1_alg».proof.Proof.Gen.Pre_finite_inputs
import proofs.«150804_j47966194762112_1_alg».proof.Proof.Gen.KernelIdeal.Value
import proofs.«150804_j47966194762112_1_alg».proof.Proof.Gen.ReferenceIdeal.Run
import proofs.«150804_j47966194762112_1_alg».proof.Proof.Gen.ReferenceIdeal.Read
import proofs.«150804_j47966194762112_1_alg».proof.Proof.ArrayValue
import proofs.«150804_j47966194762112_1_alg».proof.Proof.RefDistance
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at negDist of the arguments: the kernel's by its tiles (ArrayValue.run), the
    reference's by reading its last stage at an index (RefDistance.result_eq), from arguments that agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
